-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S3x256 : Shape := ⟨2, ![3, 256]⟩
abbrev S64x3 : Shape := ⟨2, ![64, 3]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S3x256 .f32) (main_arg3 : FVec F S64x3 .f32) (main_arg4 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3x256 .f32 := Host.absf main_arg2
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S64x3 .f32 := Host.absf main_arg3
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S3x256 : Shape := ⟨2, ![3, 256]⟩
abbrev S64x3 : Shape := ⟨2, ![64, 3]⟩
abbrev S64 : Shape := ⟨1, ![64]⟩
abbrev S256x3 : Shape := ⟨2, ![256, 3]⟩
abbrev S3x64 : Shape := ⟨2, ![3, 64]⟩
abbrev S256x64 : Shape := ⟨2, ![256, 64]⟩
abbrev S100000x64 : Shape := ⟨2, ![100000, 64]⟩
abbrev S5000x256 : Shape := ⟨2, ![5000, 256]⟩
abbrev S5000x64 : Shape := ⟨2, ![5000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 72
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S3x256, .f32⟩
  | .hbm, ⟨3, _⟩ => ⟨S64x3, .f32⟩
  | .hbm, ⟨4, _⟩ => ⟨S64, .f32⟩
  | .hbm, ⟨5, _⟩ => ⟨S256x3, .f32⟩
  | .hbm, ⟨6, _⟩ => ⟨S3x64, .f32⟩
  | .hbm, ⟨7, _⟩ => ⟨S256x64, .f32⟩
  | .hbm, ⟨8, _⟩ => ⟨S100000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000, .i1⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .f32⟩
  | .hbm, ⟨45, _⟩ => ⟨S_, .f32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S3x256_S256x3_1_0 : S3x256.Transposes [1, 0] S256x3
  transposes_S64x3_S3x64_1_0 : S64x3.Transposes [1, 0] S3x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S256x3_S3x64_S256x64_1_0_0_1_n_n_wf : DotDims.WF S256x3 S3x64 S256x64 [1] [0] [0] [1] [] []
  dot_S5000x256_S256x64_S5000x64_1_0_0_1_n_n_wf : DotDims.WF S5000x256 S256x64 S5000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)

variable [Facts₀]

def dot_S256x3_S3x64_S256x64_1_0_0_1_n_n : DotDims S256x3 S3x64 S256x64 where
  lhsContracting := [1]
  rhsContracting := [0]
  lhsNonContracting := [0]
  rhsNonContracting := [1]
  lhsBatch := []
  rhsBatch := []
  wf := dot_S256x3_S3x64_S256x64_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S3x256 : Shape := ⟨2, ![3, 256]⟩
abbrev S64x3 : Shape := ⟨2, ![64, 3]⟩
abbrev S64 : Shape := ⟨1, ![64]⟩
abbrev S256x3 : Shape := ⟨2, ![256, 3]⟩
abbrev S100000x3 : Shape := ⟨2, ![100000, 3]⟩
abbrev S3x64 : Shape := ⟨2, ![3, 64]⟩
abbrev S100000x64 : Shape := ⟨2, ![100000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S3x256, .f32⟩
  | .hbm, ⟨3, _⟩ => ⟨S64x3, .f32⟩
  | .hbm, ⟨4, _⟩ => ⟨S64, .f32⟩
  | .hbm, ⟨5, _⟩ => ⟨S256x3, .f32⟩
  | .hbm, ⟨6, _⟩ => ⟨S100000x3, .f32⟩
  | .hbm, ⟨7, _⟩ => ⟨S3x64, .f32⟩
  | .hbm, ⟨8, _⟩ => ⟨S100000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000, .i1⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .f32⟩
  | .hbm, ⟨45, _⟩ => ⟨S_, .f32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  transposes_S3x256_S256x3_1_0 : S3x256.Transposes [1, 0] S256x3
  transposes_S64x3_S3x64_1_0 : S64x3.Transposes [1, 0] S3x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x3_S100000x3_1_0_0_1_n_n_wf : DotDims.WF S100000x256 S256x3 S100000x3 [1] [0] [0] [1] [] []
  dot_S100000x3_S3x64_S100000x64_1_0_0_1_n_n_wf : DotDims.WF S100000x3 S3x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x3_S100000x3_1_0_0_1_n_n : DotDims S100000x256 S256x3 S100000x3 where
  lhsContracting := [1]
  rhsContracting := [0]
  lhsNonContracting := [0]
  rhsNonContracting := [1]
  lhsBatch := []
  rhsBatch := []
  wf := dot_S100000x256_S256x3_S100000x3_1_0_0_1_n_n_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Finite.lean ====
/-
  Finiteness read out of the precondition. The precondition says, array by array, that every entry's
  absolute value compares below the pattern of +∞; an extended real `x` with `max x (-x) < ⊤` is neither
  infinity, so it is a real number. The conjunction of the four `all`-reductions is split and each
  reduction read back at an index.
-/
import proofs.«173640_j41918880809105_1_alg».proof.Pre_finite_inputs
import Idealize.ShloMosaic.Lib.ReduceAll
import Idealize.ShloMosaic.Lib.ValueIdx
import Idealize.ShloMosaic.PureOps.Ideal.Laws

noncomputable section

namespace Cert.FiniteEntries

open Idealize.ShloMosaic Cert.Pre_finite_inputs Cert.Pre_finite_inputs.Facts

variable [Cert.Pre_finite_inputs.Facts]

instance : Subsingleton S_.Idx := ⟨fun a b => funext fun d => d.elim0⟩

/-- The f32 pattern `0x7F800000` denotes +∞. -/
theorem pattern_top : Ideal.ofBits .f32 0x7F800000#32 = (⊤ : EReal) := by
  simp [Ideal.ofBits, Ideal.ieee]

/-- An extended real whose absolute value is strictly below +∞ is a real number. -/
theorem real_of_abs_lt_top (x : EReal)
    (h : FloatOps.cmpf (F := Ideal) (φ := .f32) .olt (FloatOps.absf (F := Ideal) (φ := .f32) x) (Ideal.ofBits .f32 0x7F800000#32) = 1#1) :
    ∃ v : ℝ, x = v := by
  rw [Ideal.cmpf_def, Ideal.absf_def, pattern_top] at h
  have hlt : max x (-x) < ⊤ := by
    unfold Ideal.cmp at h
    by_contra hn
    simp [hn] at h
  induction x using EReal.rec with
  | bot => simp at hlt
  | coe r => exact ⟨r, rfl⟩
  | top => simp at hlt

/-- Under the precondition every entry of the four float arguments is a real number. -/
theorem entries_real (x0 : FVec Ideal S100000x256 .f32) (x1 : IVec S2x1600000 32) (x2 : FVec Ideal S3x256 .f32)
    (x3 : FVec Ideal S64x3 .f32) (x4 : FVec Ideal S64 .f32)
    (h : fn (F := Ideal) x0 x1 x2 x3 x4 = fun _ => 1#1) :
    (∀ i, ∃ v : ℝ, x0 i = v) ∧ (∀ i, ∃ v : ℝ, x2 i = v) ∧ (∀ i, ∃ v : ℝ, x3 i = v) ∧ (∀ i, ∃ v : ℝ, x4 i = v) := by
  have h0 := congrFun h ValueIdx.ix0
  dsimp only [fn, fn_part1, andi] at h0
  obtain ⟨h123, e4⟩ := IntOp.andi_eq_one.1 h0
  obtain ⟨h12, e3⟩ := IntOp.andi_eq_one.1 h123
  obtain ⟨e0, e2⟩ := IntOp.andi_eq_one.1 h12
  exact ⟨fun i => real_of_abs_lt_top _ (Host.reduce_andi_all _ _ _ _ _ e0 i),
    fun i => real_of_abs_lt_top _ (Host.reduce_andi_all _ _ _ _ _ e2 i),
    fun i => real_of_abs_lt_top _ (Host.reduce_andi_all _ _ _ _ _ e3 i),
    fun i => real_of_abs_lt_top _ (Host.reduce_andi_all _ _ _ _ _ e4 i)⟩

end Cert.FiniteEntries

end
-- ==== Proof.Contract.lean ====
/-
  The algebra that joins the two programs. The reference contracts the node features with the first
  low-rank factor and the result with the second factor, `(x · Bᵀ) · Aᵀ`; the kernel first multiplies
  the two small factors and contracts the features with that one matrix, `x · (Bᵀ · Aᵀ)`. Over the
  extended reals the two agree when every entry is a real number: a product distributes over a finite
  sum of reals, so both sides are the double sum `∑ k, ∑ r, x k · b r k · a r`. (With an infinite
  entry distributivity can fail, which is why finiteness of the inputs is used here.)
-/
import Idealize.ShloMosaic.PureOps.Ideal.Laws

noncomputable section

open scoped BigOperators

namespace Cert.LowRank

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the two contractions over real entries, stated in the extended reals:
    `∑ k, x k · (∑ r, b r k · a r) = ∑ r, (∑ k, x k · b r k) · a r`. -/
theorem contract_assoc_real {K R : Type} [Fintype K] [Fintype R] (x : K → ℝ) (b : R → K → ℝ) (a : R → ℝ) :
    (∑ k, (x k : EReal) * ∑ r, (b r k : EReal) * (a r : EReal))
      = ∑ r, (∑ k, (x k : EReal) * (b r k : EReal)) * (a r : EReal) := by
  simp only [← EReal.coe_mul, ← coe_sum]
  congr 1
  simp only [Finset.mul_sum, Finset.sum_mul]
  rw [Finset.sum_comm]
  refine Finset.sum_congr rfl fun r _ => Finset.sum_congr rfl fun k _ => ?_
  ring

/-- The same for extended-real entries each of which is a real number. -/
theorem contract_assoc {K R : Type} [Fintype K] [Fintype R] (x : K → EReal) (b : R → K → EReal) (a : R → EReal)
    (hx : ∀ k, ∃ v : ℝ, x k = v) (hb : ∀ r k, ∃ v : ℝ, b r k = v) (ha : ∀ r, ∃ v : ℝ, a r = v) :
    (∑ k, x k * ∑ r, b r k * a r) = ∑ r, (∑ k, x k * b r k) * a r := by
  choose x' hx' using hx
  choose b' hb' using hb
  choose a' ha' using ha
  simp only [hx', hb', ha']
  exact contract_assoc_real x' b' a'

end Cert.LowRank

end
-- ==== Proof.KerBody.lean ====
/-
  The kernel body at one grid point: it loads a block of 5000 rows of the features and the whole
  256 × 64 matrix, narrows both (the identity on extended reals) and multiplies them on the matrix
  unit into a zero accumulator. Read at an entry (p, q) the stored block is the plain contraction
  `∑ k, x (p, k) · w (k, q)`.
-/
import proofs.«173640_j41918880809105_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

theorem lhs_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The stored block at entry `(p, q)`: the contraction of row `p` of the feature block with column `q` of the matrix. -/
theorem pay_apply (x0 : Vec Ideal S5000x256 .f32) (x1 : Vec Ideal S256x64 .f32) (p : Fin 5000) (q : Fin 64) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun a => Fin.ext (by
    match a with
    | ⟨0, _⟩ => exact (rhs_0 _ _).trans hk
    | ⟨1, _⟩ => exact rhs_1 _ _)
  rw [el, er, truncf_apply, truncf_apply, shapeCast_self]

end Cert.KernelIdeal.Body

end
-- ==== Proof.KerArray.lean ====
/-
  The array the kernel region leaves: every grid point `t` writes back rows `5000·t … 5000·t + 4999`
  of the product of the feature array with the 256 × 64 matrix the host lines before the region
  computed, the twenty blocks tile the 100000 rows, so the whole array is that product:
  `h (i, j) = ∑ k, x (i, k) · w (k, j)`.
-/
import proofs.«173640_j41918880809105_1_alg».proof.Proof.Gen.KernelIdeal.Frame
import proofs.«173640_j41918880809105_1_alg».proof.Proof.KerBody
import Idealize.ShloMosaic.Lib.Pipeline.Value
import Idealize.ShloMosaic.Lib.ValueIdx

noncomputable section

namespace Cert.KernelIdeal.Region

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The product of a 100000 × 256 array with a 256 × 64 matrix, entry by entry. -/
def product (x : Vec Ideal S100000x256 .f32) (w : Vec Ideal S256x64 .f32) : Vec Ideal S100000x64 .f32 :=
  fun y => ∑ k : Fin 256, x (ix2 (⟨(y 0).val, (y 0).isLt⟩ : Fin 100000) k) * w (ix2 k (⟨(y 1).val, (y 1).isLt⟩ : Fin 64))

/-- The feature array and the matrix window's array as the region finds them, at their literal types. -/
abbrev xarr (c : Dev nD) : Vec Ideal S100000x256 .f32 := V m c main_arg0
abbrev warr (c : Dev nD) : Vec Ideal S256x64 .f32 := V m c main_v2

/-- The printed index maps over the twenty points: the feature and output windows move down one block
    of rows per point, the matrix window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the product. -/
theorem flushed_eq (c : Dev nD) (t : Fin cfg0.N) :
    (dats m 0 c).flushed 2 t = ((cfg0.win 2).blk t).view.read (Elt Ideal) (product (xarr m c) (warr m c)) := by
  show (cfg0.win 2).cut (grid0.coords t) ((dats m 0 c).after 2 t) = _
  rw [after0_2]
  unfold out0_2
  rw [View.canon_unit_zero hz]
  simp only [View.ld_unit_zero (S := S5000x256) hz, View.ld_unit_zero (S := S256x64) hz]
  obtain ⟨e0, e1, e2, e3, e4, e5⟩ := idx_facts t
  refine funext fun (j : S5000x64.Idx) => ?_
  obtain ⟨p, q, rfl⟩ : ∃ (p : Fin 5000) (q : Fin 64), j = ix2 p q := ⟨j 0, j 1, eq_ix2 j⟩
  show k0_pay1 (F := Ideal) (iblk m c 0 t) (iblk m c 1 t) (ix2 p q) = _
  refine (pay_apply (iblk m c 0 t) (iblk m c 1 t) p q).trans ?_
  show (∑ k : Fin 256, xarr m c (((cfg0.win 0).blk t).view.emb (ix2 p k)) * warr m c (((cfg0.win 1).blk t).view.emb (ix2 k q)))
    = product (xarr m c) (warr m c) (((cfg0.win 2).blk t).view.emb (ix2 p q))
  unfold product
  refine Finset.sum_congr rfl fun k _ => ?_
  refine congrArg₂ (· * ·) (congrArg (xarr m c) ?_) (congrArg (warr m c) ?_)
  · funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  · funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v3).slice (win0_2.rect t)).set ↔ _
  rw [View.set_slice_whole, Rect.mem_set_unit]
  exact Iff.rfl

/-- The twenty blocks tile the array: row `r` is in the block of point `r / 5000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its output array is the product of the features with the matrix window's array. -/
theorem final (c : Dev nD) :
    (dats m 0 c).arrAt 2 cfg0.N = product (xarr m c) (warr m c) :=
  (dats m 0 c).arrAt_eq_of_cover 2 (product (xarr m c) (warr m c)) (fun t _ => flushed_eq m c t) covered

end Cert.KernelIdeal.Region

end
-- ==== Proof.KerHost.lean ====
/-
  The matrix the host lines before the region hand the kernel: the product of the two transposed
  low-rank factors, `w (k, q) = ∑ r, B (r, k) · A (q, r)`.
-/
import proofs.«173640_j41918880809105_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Folded

open Cert.KernelIdeal Cert.KernelIdeal.Gen
open Idealize.ShloMosaic Idealize.ShloMosaic.TcCoe Idealize.SL.Sem Idealize.ShloMosaic.ValueIdx Idealize.ShloMosaic.StableHlo

variable {F : FTy → Type} [FloatOps F]

/-- The folded matrix `Bᵀ · Aᵀ` as the host lines compute it. -/
def folded (b : (⟨S3x256, .f32⟩ : BufTy).Contents (Elt F)) (a : (⟨S64x3, .f32⟩ : BufTy).Contents (Elt F)) :
    (⟨S256x64, .f32⟩ : BufTy).Contents (Elt F) :=
  Host.dotGeneral dot_S256x3_S3x64_S256x64_1_0_0_1_n_n none (transpose S256x3 [1, 0] b transposes_S3x256_S256x3_1_0)
    (transpose S3x64 [1, 0] a transposes_S64x3_S3x64_1_0)

/-- The region finds the folded matrix in the matrix window's array. -/
theorem V_matrix (m : (ℓ : Loc nD τ sig) → Buf (Elt F) ℓ) (c : Dev nD) :
    V m c main_v2 = folded (F := F) (m ((c.tc : Thread nD τ).loc main_arg2)) (m ((c.tc : Thread nD τ).loc main_arg3)) := by
  show StableHlo.after hostOps0 (fun b => m (c, b)) (Proc.devRef .tc main_v2) = _
  after_results
  rfl

theorem lhs_0 (i : S256x64.Idx) (q : dot_S256x3_S3x64_S256x64_1_0_0_1_n_n.contr.Idx) :
    (dot_S256x3_S3x64_S256x64_1_0_0_1_n_n.lhsIdx i q 0).val = (i 0).val := by
  unfold DotDims.lhsIdx
  rw [dif_neg (show ¬(0 : Fin S256x3.rank) ∈ dot_S256x3_S3x64_S256x64_1_0_0_1_n_n.lhsBatch by decide), dif_pos (show (0 : Fin S256x3.rank) ∈ dot_S256x3_S3x64_S256x64_1_0_0_1_n_n.lhsNonContracting by decide)]
  rfl
theorem lhs_1 (i : S256x64.Idx) (q : dot_S256x3_S3x64_S256x64_1_0_0_1_n_n.contr.Idx) :
    (dot_S256x3_S3x64_S256x64_1_0_0_1_n_n.lhsIdx i q 1).val = (q ⟨0, by decide⟩).val :=
  dot_S256x3_S3x64_S256x64_1_0_0_1_n_n.lhsIdx_val_of_single rfl i q
theorem rhs_0 (i : S256x64.Idx) (q : dot_S256x3_S3x64_S256x64_1_0_0_1_n_n.contr.Idx) :
    (dot_S256x3_S3x64_S256x64_1_0_0_1_n_n.rhsIdx i q 0).val = (q ⟨0, by decide⟩).val :=
  dot_S256x3_S3x64_S256x64_1_0_0_1_n_n.rhsIdx_val_of_single rfl i q
theorem rhs_1 (i : S256x64.Idx) (q : dot_S256x3_S3x64_S256x64_1_0_0_1_n_n.contr.Idx) :
    (dot_S256x3_S3x64_S256x64_1_0_0_1_n_n.rhsIdx i q 1).val = (i 1).val := by
  unfold DotDims.rhsIdx
  rw [dif_neg (show ¬(1 : Fin S3x64.rank) ∈ dot_S256x3_S3x64_S256x64_1_0_0_1_n_n.rhsBatch by decide), dif_pos (show (1 : Fin S3x64.rank) ∈ dot_S256x3_S3x64_S256x64_1_0_0_1_n_n.rhsNonContracting by decide)]
  rfl

/-- The folded matrix at an entry: the two factors contracted over the rank. -/
theorem folded_apply (b : (⟨S3x256, .f32⟩ : BufTy).Contents (Elt Ideal)) (a : (⟨S64x3, .f32⟩ : BufTy).Contents (Elt Ideal))
    (k : Fin 256) (q : Fin 64) :
    folded (F := Ideal) b a (ix2 k q) = ∑ r : Fin 3, b (ix2 r k) * a (ix2 q r) := by
  unfold folded
  simp only [Host.dotGeneral]
  rw [Ideal.dotGeneral_apply, ← Equiv.sum_comp (contrEquiv1 dot_S256x3_S3x64_S256x64_1_0_0_1_n_n 3 rfl rfl).symm]
  refine Finset.sum_congr rfl fun r _ => ?_
  have hr := contrEquiv1_symm_val dot_S256x3_S3x64_S256x64_1_0_0_1_n_n 3 rfl rfl r
  have el : dot_S256x3_S3x64_S256x64_1_0_0_1_n_n.lhsIdx (ix2 k q) ((contrEquiv1 dot_S256x3_S3x64_S256x64_1_0_0_1_n_n 3 rfl rfl).symm r) = ix2 k r := funext fun d => Fin.ext (by
    match d with
    | ⟨0, _⟩ => exact lhs_0 _ _
    | ⟨1, _⟩ => exact (lhs_1 _ _).trans hr)
  have er : dot_S256x3_S3x64_S256x64_1_0_0_1_n_n.rhsIdx (ix2 k q) ((contrEquiv1 dot_S256x3_S3x64_S256x64_1_0_0_1_n_n 3 rfl rfl).symm r) = ix2 r q := funext fun d => Fin.ext (by
    match d with
    | ⟨0, _⟩ => exact (rhs_0 _ _).trans hr
    | ⟨1, _⟩ => exact rhs_1 _ _)
  rw [el, er]
  refine congrArg₂ (· * ·) ?_ ?_
  · exact transpose_apply [1, 0] b transposes_S3x256_S256x3_1_0 (ix2 k r) (ix2 r k) (fun d => match d with
      | ⟨0, _⟩ => rfl
      | ⟨1, _⟩ => rfl)
  · exact transpose_apply [1, 0] a transposes_S64x3_S3x64_1_0 (ix2 r q) (ix2 q r) (fun d => match d with
      | ⟨0, _⟩ => rfl
      | ⟨1, _⟩ => rfl)

end Cert.KernelIdeal.Folded

end
-- ==== Proof.Propagate.lean ====
/-
  The graph propagation that both programs apply, after their projection, to the projected node
  features `h`, the edge list `e` and the bias: with `row = e[0]`, `col = e[1]` and `keep = (row ≠ col)`,
  the degree is `deg = scatter-add of keep at col, plus 1`, `dinv = deg ^ (-1/2)`, the edge weight is
  `dinv[row] · dinv[col]` where `keep` holds and `0` elsewhere, and the result is
  `scatter-add of (weight · h[row]) at col  +  dinv² · h  +  bias`.
  It is written once, for any float instance, as a function of `h`; the two programs differ only in
  the `h` they hand it, so their results agree as soon as their projections do.
-/
import proofs.«173640_j41918880809105_1_alg».proof.ReferenceIdeal

noncomputable section

namespace Cert.ReferenceIdeal.Propagation

open Cert.ReferenceIdeal Idealize.ShloMosaic Idealize.ShloMosaic.TcCoe

variable {F : FTy → Type} [FloatOps F] [Cert.ReferenceIdeal.Facts]
open Cert.ReferenceIdeal.Facts₀ Cert.ReferenceIdeal.Facts

/-- A vector of node indices with negative entries wrapped around by the node count, as a column of
    start indices for a gather. -/
def wrapped (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The inverse square root of the degree (self loop included) of every node. -/
def invSqrtDeg (row col : (⟨S1600000, .i32⟩ : BufTy).Contents (Elt F)) : (⟨S100000, .f32⟩ : BufTy).Contents (Elt F) :=
  Host.powf
    (addf
      (Host.scatterAdd scatter_S100000_S1600000x1_S1600000_n_0_0_1
        (broadcastInDim S100000 ![] bcast_S_S100000 (constant S_ .f32 0x00000000#32))
        (broadcastInDim S1600000x1 ![0] bcast_S1600000_S1600000x1_0 col)
        (uitofp .f32 (cmpi .ne row col)))
      (broadcastInDim S100000 ![] bcast_S_S100000 (constant S_ .f32 0x3F800000#32)))
    (broadcastInDim S100000 ![] bcast_S_S100000 (constant S_ .f32 0xBF000000#32))

/-- The propagation as one function of the projected features, the edge list and the bias. -/
def propagate (h : (⟨S100000x64, .f32⟩ : BufTy).Contents (Elt F)) (e : (⟨S2x1600000, .i32⟩ : BufTy).Contents (Elt F)) (bias : (⟨S64, .f32⟩ : BufTy).Contents (Elt F)) :
    (⟨S100000x64, .f32⟩ : BufTy).Contents (Elt F) :=
  have row : (⟨S1600000, .i32⟩ : BufTy).Contents (Elt F) :=
    shapeCast _ (extractStridedSlice S1x1600000 ![0, 0] e slices_S2x1600000_S1x1600000_0_0) shapeCasts_S1x1600000_S1600000
  have col : (⟨S1600000, .i32⟩ : BufTy).Contents (Elt F) :=
    shapeCast _ (extractStridedSlice S1x1600000 ![1, 0] e slices_S2x1600000_S1x1600000_1_0) shapeCasts_S1x1600000_S1600000
  have dinv : (⟨S100000, .f32⟩ : BufTy).Contents (Elt F) := invSqrtDeg row col
  have weight : (⟨S1600000, .f32⟩ : BufTy).Contents (Elt F) :=
    select (cmpi .ne row col)
      (mulf (Host.gather gather_S100000_S1600000x1_S1600000_n_0_n_n_0_1_1 dinv (wrapped row))
        (Host.gather gather_S100000_S1600000x1_S1600000_n_0_n_n_0_1_1 dinv (wrapped col)))
      (broadcastInDim S1600000 ![] bcast_S_S1600000 (id (constant S_ .f32 0x00000000#32)))
  have messages : (⟨S1600000x64, .f32⟩ : BufTy).Contents (Elt F) :=
    mulf (broadcastInDim S1600000x64 ![0, 1] bcast_S1600000x1_S1600000x64_0_1
        (broadcastInDim S1600000x1 ![0] bcast_S1600000_S1600000x1_0 weight))
      (Host.gather gather_S100000x64_S1600000x1_S1600000x64_1_0_n_n_0_1_164 h (wrapped row))
  addf
    (addf
      (Host.scatterAdd scatter_S100000x64_S1600000x1_S1600000x64_1_0_0_1
        (broadcastInDim S100000x64 ![] bcast_S_S100000x64 (constant S_ .f32 0x00000000#32))
        (broadcastInDim S1600000x1 ![0] bcast_S1600000_S1600000x1_0 col) messages)
      (mulf (broadcastInDim S100000x64 ![0, 1] bcast_S100000x1_S100000x64_0_1
          (broadcastInDim S100000x1 ![0] bcast_S100000_S100000x1_0 (mulf dinv dinv))) h))
    (broadcastInDim S100000x64 ![0, 1] bcast_S1x64_S100000x64_0_1 (broadcastInDim S1x64 ![1] bcast_S64_S1x64_1 bias))

end Cert.ReferenceIdeal.Propagation

end
-- ==== Proof.RefValue.lean ====
/-
  The reference's result as the propagation of its projection, and that projection read at an entry:
  `h (i, j) = ∑ r, (∑ k, x (i, k) · B (r, k)) · A (j, r)` — the features contracted with the first
  low-rank factor, the result contracted with the second.
-/
import proofs.«173640_j41918880809105_1_alg».proof.Proof.Gen.ReferenceIdeal.Read
import proofs.«173640_j41918880809105_1_alg».proof.Proof.Propagate

noncomputable section

namespace Cert.ReferenceIdeal.RefValue

open Cert.ReferenceIdeal Cert.ReferenceIdeal.Gen Cert.ReferenceIdeal.Read Cert.ReferenceIdeal.Propagation
open Idealize.ShloMosaic Idealize.ShloMosaic.TcCoe Idealize.SL.Sem Idealize.ShloMosaic.ValueIdx

variable {F : FTy → Type} [FloatOps F]

/-- The reference's result is the propagation applied to its projection `(x · Bᵀ) · Aᵀ`. -/
theorem result_eq_propagate (m : (ℓ : Loc nD τ sig) → Buf (Elt F) ℓ) (c : Dev nD) :
    Cert.ReferenceIdeal.Value.res_main_v53 (F := F) m c
      = propagate (val_main_v3 (F := F) (m ((c.tc : Thread nD τ).loc main_arg0)) (m ((c.tc : Thread nD τ).loc main_arg2)) (m ((c.tc : Thread nD τ).loc main_arg3)))
          (m ((c.tc : Thread nD τ).loc main_arg1)) (m ((c.tc : Thread nD τ).loc main_arg4)) := by
  unfold Cert.ReferenceIdeal.Value.res_main_v53 propagate invSqrtDeg wrapped val_main_v3 val_main_v1 val_main_v2 val_main_v0
  rfl

/-- The reference's projection at an entry. -/
theorem proj_apply (x : (⟨S100000x256, .f32⟩ : BufTy).Contents (Elt Ideal)) (b : (⟨S3x256, .f32⟩ : BufTy).Contents (Elt Ideal))
    (a : (⟨S64x3, .f32⟩ : BufTy).Contents (Elt Ideal)) (i : Fin 100000) (j : Fin 64) :
    val_main_v3 (F := Ideal) x b a (ix2 i j) = ∑ r : Fin 3, (∑ k : Fin 256, x (ix2 i k) * b (ix2 r k)) * a (ix2 j r) := by
  rw [val_main_v3_apply]
  refine Finset.sum_congr rfl fun r _ => ?_
  rw [val_main_v1_apply, val_main_v2_apply]
  refine congrArg₂ (· * ·) (Finset.sum_congr rfl fun k _ => ?_) ?_
  · rw [val_main_v0_apply]
    refine congrArg₂ (· * ·) (congrArg x ?_) (congrArg b ?_)
    · funext d; match d with
      | ⟨0, _⟩ => rfl
      | ⟨1, _⟩ => rfl
    · funext d; match d with
      | ⟨0, _⟩ => rfl
      | ⟨1, _⟩ => rfl
  · refine congrArg a ?_
    funext d; match d with
    | ⟨0, _⟩ => rfl
    | ⟨1, _⟩ => rfl

end Cert.ReferenceIdeal.RefValue

end
-- ==== Proof.Bridge.lean ====
/-
  The two projections agree on real entries. The kernel's is the feature array times the folded
  matrix, `∑ k, x (i, k) · (∑ r, B (r, k) · A (j, r))`; the reference's contracts in the other order,
  `∑ r, (∑ k, x (i, k) · B (r, k)) · A (j, r)`. Associativity of the two contractions over real
  entries joins them.
-/
import proofs.«173640_j41918880809105_1_alg».proof.Proof.Contract
import proofs.«173640_j41918880809105_1_alg».proof.Proof.KerArray
import proofs.«173640_j41918880809105_1_alg».proof.Proof.KerHost
import proofs.«173640_j41918880809105_1_alg».proof.Proof.RefValue

noncomputable section

namespace Cert.Bridge

open Idealize.ShloMosaic Idealize.ShloMosaic.ValueIdx

/-- On arrays of real entries the kernel's projection is the reference's. -/
theorem projections_agree (x : Vec Ideal Cert.KernelIdeal.S100000x256 .f32) (b : Vec Ideal Cert.KernelIdeal.S3x256 .f32)
    (a : Vec Ideal Cert.KernelIdeal.S64x3 .f32)
    (hx : ∀ i, ∃ v : ℝ, x i = v) (hb : ∀ i, ∃ v : ℝ, b i = v) (ha : ∀ i, ∃ v : ℝ, a i = v) :
    Cert.KernelIdeal.Region.product x (Cert.KernelIdeal.Folded.folded (F := Ideal) b a)
      = Cert.ReferenceIdeal.Read.val_main_v3 (F := Ideal) x b a := by
  funext y
  obtain ⟨i, j, rfl⟩ : ∃ (i : Fin 100000) (j : Fin 64), y = ix2 i j := ⟨y 0, y 1, eq_ix2 y⟩
  refine Eq.trans ?_ (Cert.ReferenceIdeal.RefValue.proj_apply x b a i j).symm
  show (∑ k : Fin 256, x (ix2 i k) * Cert.KernelIdeal.Folded.folded (F := Ideal) b a (ix2 k j)) = _
  simp only [Cert.KernelIdeal.Folded.folded_apply]
  exact Cert.LowRank.contract_assoc (fun k => x (ix2 i k)) (fun r k => b (ix2 r k)) (fun r => a (ix2 j r))
    (fun k => hx _) (fun r k => hb _) (fun r => ha _)

end Cert.Bridge

end
-- ==== Proof.KerTail.lean ====
/-
  The host lines after the region, and the kernel's whole run. From any buffer contents the lines
  after the region compute, into the result buffer, the propagation of whatever the region's output
  array, the edge list and the bias hold. The frame run leaves the region's output array at the
  product of the features with the folded matrix, so the kernel's result is the propagation of
  `x · (Bᵀ · Aᵀ)`.
-/
import proofs.«173640_j41918880809105_1_alg».proof.Proof.Gen.KernelIdeal.Frame
import proofs.«173640_j41918880809105_1_alg».proof.Proof.Gen.ReferenceIdeal
import proofs.«173640_j41918880809105_1_alg».proof.Proof.Propagate
import proofs.«173640_j41918880809105_1_alg».proof.Proof.KerArray
import proofs.«173640_j41918880809105_1_alg».proof.Proof.KerHost
import Idealize.ShloMosaic.Lib.StableHlo.Run

noncomputable section

namespace Cert.KernelIdeal.Tail

open Cert.KernelIdeal Cert.KernelIdeal.Gen
open Idealize.ShloMosaic Idealize.ShloMosaic.TcCoe Idealize.SL.Sem Idealize.ShloMosaic.StableHlo
open Cert.ReferenceIdeal.Propagation (propagate)
open Cert.KernelIdeal.Region (product xarr warr)
open Cert.KernelIdeal.Folded (folded)

section AnyInstance

variable {F : FTy → Type} [FloatOps F]

set_option maxRecDepth 8192 in
set_option maxHeartbeats 26800000 in
/-- The lines after the region, run from any contents `A`, leave in the result buffer the propagation of
    `A`'s projected features, edge list and bias. -/
theorem after_tail (A : Valuation τ sig (Elt F)) :
    StableHlo.after (List.flatten [hostOps1, hostOps1_1, hostOps1_2]) A (Proc.devRef .tc main_v53)
      = propagate (F := F) (A (Proc.devRef .tc main_v3)) (A (Proc.devRef .tc main_arg1)) (A (Proc.devRef .tc main_arg4)) := by
  simp only [hostOps1, hostOps1_1, hostOps1_2, List.flatten_cons, List.flatten_nil, List.append_nil, List.cons_append, List.nil_append]
  after_results_simp
  unfold propagate Cert.ReferenceIdeal.Propagation.invSqrtDeg Cert.ReferenceIdeal.Propagation.wrapped
  rfl

end AnyInstance

variable (m : (ℓ : Loc nD τ sig) → Buf (Elt Ideal) ℓ) (ρ : Dev nD → PrngReg)

/-- The kernel's result: the propagation of the features times the folded matrix. -/
def result (c : Dev nD) : Vec Ideal S100000x64 .f32 :=
  propagate (F := Ideal) (product (m ((c.tc : Thread nD τ).loc main_arg0)) (folded (F := Ideal) (m ((c.tc : Thread nD τ).loc main_arg2)) (m ((c.tc : Thread nD τ).loc main_arg3))))
    (m ((c.tc : Thread nD τ).loc main_arg1)) (m ((c.tc : Thread nD τ).loc main_arg4))

theorem xarr_eq (c : Dev nD) : xarr m c = (m ((c.tc : Thread nD τ).loc main_arg0)) := V_main_arg0 m c
theorem warr_eq (c : Dev nD) : warr m c = folded (F := Ideal) (m ((c.tc : Thread nD τ).loc main_arg2)) (m ((c.tc : Thread nD τ).loc main_arg3)) :=
  Cert.KernelIdeal.Folded.V_matrix m c

/-- After the region its output array is the features times the folded matrix. -/
theorem region_array (c : Dev nD) :
    (dats m 0 c).arrAt 2 cfg0.N = product (m ((c.tc : Thread nD τ).loc main_arg0)) (folded (F := Ideal) (m ((c.tc : Thread nD τ).loc main_arg2)) (m ((c.tc : Thread nD τ).loc main_arg3))) := by
  rw [Cert.KernelIdeal.Region.final, xarr_eq, warr_eq]

/-- What the lines after the region leave in the result buffer. -/
theorem tail_value (c : Dev nD) :
    Pipeline.afterTail₀ cfgs (dats m) 0 (V0 m) [hostOps1, hostOps1_1, hostOps1_2] c main_v53 = result m c := by
  unfold Pipeline.afterTail₀
  refine (after_tail _).trans ?_
  have h3 := (Pipeline.withArrays_arr spec0 launch0.win.arr_inj c (V0 m c) (fun w => (dats m 0 c).arrAt w cfg0.N) 2).trans (region_array m c)
  have h1 := (Pipeline.withArrays_of_ne spec0 c (V0 m c) (fun w => (dats m 0 c).arrAt w cfg0.N) main_arg1
    (by exact (by decide : ∀ w, Pipeline.arrRef spec0 w ≠ main_arg1))).trans (V_main_arg1 m c)
  have h4 := (Pipeline.withArrays_of_ne spec0 c (V0 m c) (fun w => (dats m 0 c).arrAt w cfg0.N) main_arg4
    (by exact (by decide : ∀ w, Pipeline.arrRef spec0 w ≠ main_arg4))).trans (V_main_arg4 m c)
  unfold result
  exact congr (congr (congrArg (propagate (F := Ideal)) h3) h1) h4

/-- The kernel's run: every weakly fair execution terminates with the result buffer at `result` and the
    arguments unchanged. -/
theorem run : θ_run defs (onTc (τ := τ) (main (F := Ideal))) ⟨m, fun _ => 0, ρ⟩ fun r => ∀ c : Dev nD,
      r.2.mem ((c.tc : Thread nD τ).loc main_v53) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v53 (Pipeline.mem_restRefs_of main_v53 (by decide) (by decide))).trans (tail_value m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Tail

end
-- ==== Proof.lean ====
/-
  A graph layer with a low-rank projection. Both programs project the node features `x` through the
  two low-rank factors `B` (3 × 256) and `A` (64 × 3) and then apply the same degree-normalised
  propagation over the edge list, plus a bias. The reference projects as `(x · Bᵀ) · Aᵀ`; the kernel
  folds the factors on the host into one 256 × 64 matrix `Bᵀ · Aᵀ` and multiplies the features by it,
  twenty blocks of 5000 rows, on the matrix unit (the narrowing of the operands is the identity on
  extended reals). Under the precondition every entry is a real number, so the two contractions
  associate and the projections are one array; the propagation is one function of that array, the
  edge list and the bias, so the results agree. The ideal pass rewrote nothing, so `preserves` is
  trivial; the kernel's frames are the generated ones and the reference's is its run.
-/
import proofs.«173640_j41918880809105_1_alg».proof.Defs
import proofs.«173640_j41918880809105_1_alg».proof.Proof.Gen.Kernel
import proofs.«173640_j41918880809105_1_alg».proof.Proof.Gen.Kernel.Frame
import proofs.«173640_j41918880809105_1_alg».proof.Proof.Gen.KernelIdeal
import proofs.«173640_j41918880809105_1_alg».proof.Proof.Gen.KernelIdeal.Frame
import proofs.«173640_j41918880809105_1_alg».proof.Proof.Gen.ReferenceIdeal
import proofs.«173640_j41918880809105_1_alg».proof.Proof.Gen.ReferenceIdeal.Run
import proofs.«173640_j41918880809105_1_alg».proof.Proof.Gen.Pre_finite_inputs
import proofs.«173640_j41918880809105_1_alg».proof.Proof.Finite
import proofs.«173640_j41918880809105_1_alg».proof.Proof.Bridge
import proofs.«173640_j41918880809105_1_alg».proof.Proof.KerTail
import proofs.«173640_j41918880809105_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the propagation of the kernel's projection: the kernel's by
    its run, the reference's because on real entries its projection is the same array. -/
theorem algebraic : Cert.algebraic_KernelIdeal_ReferenceIdeal := by
  intro m ρ m' ρ' hpre hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq_propagate]
  obtain ⟨e0, e1, e2, e3, e4⟩ := hagree c
  rw [e0, e1, e2, e3, e4]
  obtain ⟨hx, hb, ha, -⟩ := Cert.FiniteEntries.entries_real _ _ _ _ _ (hpre c)
  show Cert.ReferenceIdeal.Propagation.propagate _ _ _ = Cert.KernelIdeal.Tail.result m c
  unfold Cert.KernelIdeal.Tail.result
  rw [Cert.Bridge.projections_agree _ _ _ hx hb ha]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
